-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x1024x1024 : Shape := ⟨4, ![64, 1, 1024, 1024]⟩
abbrev S_ : Shape := ⟨0, ![]⟩

class Facts : Prop where
  bcast_S_S64x1x1024x1024 : S_.BroadcastsInDim S64x1x1024x1024 (![] : Fin 0 → Fin S64x1x1024x1024.rank)
  reducesTo_S64x1x1024x1024_S_d0_1_2_3 : S64x1x1024x1024.ReducesTo [0, 1, 2, 3] S_
  h_S_ : 0 < S_.numel

variable [Facts]

def fn {F : FTy → Type} [FloatOps F] (main_arg0 : FVec F S64x1x1024x1024 .f32) : IVec S_ 1 :=
  let main_v0 : FVec F S64x1x1024x1024 .f32 := Host.absf main_arg0
  let main_cst : FVec F S_ .f32 := constant S_ .f32 0x7F800000#32
  let main_v1 : FVec F S64x1x1024x1024 .f32 := broadcastInDim S64x1x1024x1024 ![] bcast_S_S64x1x1024x1024 main_cst
  let main_v2 : IVec S64x1x1024x1024 1 := cmpf .olt main_v0 main_v1
  let main_c : IVec S_ 1 := constantI S_ 1 1#1
  let main_v3 : IVec S_ 1 := (fun x v => Host.reduce IntOp.andi x v reducesTo_S64x1x1024x1024_S_d0_1_2_3 h_S_) main_v2 main_c
  main_v3
-- ==== Kernel.lean ====
abbrev S64x1x1024x1024 : Shape := ⟨4, ![64, 1, 1024, 1024]⟩
abbrev S65536x1024 : Shape := ⟨2, ![65536, 1024]⟩
abbrev S1x1 : Shape := ⟨2, ![1, 1]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 4
  | .smem => 0
  | _ => 0

abbrev bufTy : (tb : Table) → Fin (tcTables nBuf tb) → BufTy
  | .hbm, ⟨0, _⟩ => ⟨S64x1x1024x1024, .f32⟩
  | .hbm, ⟨1, _⟩ => ⟨S65536x1024, .f32⟩
  | .hbm, ⟨2, _⟩ => ⟨S1x1, .f32⟩
  | .hbm, ⟨3, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1x1, .f32⟩
  | .local _ .vmem, ⟨3, _⟩ => ⟨S1x1, .f32⟩
  | _, _ => ⟨S64x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v32 : BitVec 1 := Scalar.cmpi .eq arg0 c63_i32
  let v33 : BitVec 32 := Scalar.extui v32
  let c0_i32_13 : BitVec 32 := 0#32
  let v34 : BitVec 1 := Scalar.cmpi .ne v33 c0_i32_13
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S64x1x1024x1024_S65536x1024 : S64x1x1024x1024.ShapeCasts S65536x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S64x1x1024x1024 : Shape := ⟨4, ![64, 1, 1024, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S64x1x1024x1024, .f32⟩
  | .hbm, ⟨1, _⟩ => ⟨S_, .f32⟩
  | .hbm, ⟨2, _⟩ => ⟨S64x1x1024x1024, .f32⟩
  | .hbm, ⟨3, _⟩ => ⟨S64x1x1024x1024, .f32⟩
  | .hbm, ⟨4, _⟩ => ⟨S_, .f32⟩
  | .hbm, ⟨5, _⟩ => ⟨S64x1x1024x1024, .f32⟩
  | .hbm, ⟨6, _⟩ => ⟨S64x1x1024x1024, .f32⟩
  | .hbm, ⟨7, _⟩ => ⟨S64x1x1024x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64x1x1024x1024, .f32⟩
  | .hbm, ⟨12, _⟩ => ⟨S64x1x1024x1024, .f32⟩
  | .hbm, ⟨13, _⟩ => ⟨S_, .f32⟩
  | .hbm, ⟨14, _⟩ => ⟨S64x1x1024x1024, .f32⟩
  | .hbm, ⟨15, _⟩ => ⟨S64x1x1024x1024, .f32⟩
  | .hbm, ⟨16, _⟩ => ⟨S_, .f32⟩
  | .hbm, ⟨17, _⟩ => ⟨S64x1x1024x1024, .f32⟩
  | .hbm, ⟨18, _⟩ => ⟨S64x1x1024x1024, .f32⟩
  | .hbm, ⟨19, _⟩ => ⟨S_, .f32⟩
  | .hbm, ⟨20, _⟩ => ⟨S64x1x1024x1024, .f32⟩
  | .hbm, ⟨21, _⟩ => ⟨S64x1x1024x1024, .f32⟩
  | .hbm, ⟨22, _⟩ => ⟨S64x1x1024x1024, .f32⟩
  | .hbm, ⟨23, _⟩ => ⟨S64x1x1024x1024, .f32⟩
  | .hbm, ⟨24, _⟩ => ⟨S_, .f32⟩
  | .hbm, ⟨25, _⟩ => ⟨S64x1x1024x1024, .f32⟩
  | .hbm, ⟨26, _⟩ => ⟨S64x1x1024x1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S64x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_cst_2 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_v7 : Ref sig .tc := ⟨.hbm, 18, rfl⟩
abbrev main_cst_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_v13 : Ref sig .tc := ⟨.hbm, 26, rfl⟩
abbrev main_cst_6 : Ref sig .tc := ⟨.hbm, 27, rfl⟩
abbrev main_v14 : Ref sig .tc := ⟨.hbm, 28, rfl⟩
abbrev main_cst_7 : Ref sig .tc := ⟨.hbm, 29, rfl⟩
abbrev main_v15 : Ref sig .tc := ⟨.hbm, 30, rfl⟩

abbrev nD : Nat := 1
abbrev τ : Topo := Topo.v7x

variable {F : FTy → Type} [FloatOps F]

class Facts₀ : Prop where
  bcast_S_S64x1x1024x1024 : S_.BroadcastsInDim S64x1x1024x1024 (![] : Fin 0 → Fin S64x1x1024x1024.rank)
  reducesTo_S64x1x1024x1024_S_d0_1_2_3 : S64x1x1024x1024.ReducesTo [0, 1, 2, 3] S_
  h_S_ : 0 < S_.numel

variable [Facts₀]

class Facts : Prop extends Facts₀ where

variable [Facts]
-- ==== Proof.Pieces.lean ====
/-
  What each control case of the kernel body leaves behind, as the body's stored values.
  The body has three cases. At the first grid point it resets the one-entry scratch to zero, reads it back and stores the
  update over it. At the middle points it stores the update over what the point before left. At the last point it
  does the same and then stores, into the output's block, the final value computed from the scratch it has just written.
  Each buffer is a single [1, 1] entry written by whole-buffer stores, so what remains is the last store's value, with a
  load after a store reading that store's value.
-/
import proofs.«154723_j69114613728896_1_alg».proof.Proof.Gen.KernelIdeal.Frame
import Idealize.ShloMosaic.Lib.Pipeline.Value
import Idealize.ShloMosaic.Lib.Tactic

noncomputable section

namespace Cert.KernelIdeal.Acc

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- A middle point leaves in the scratch the update of the tile `x` over the scratch's earlier contents `xs`. -/
theorem scratch_B (c : Dev nD) (i : grid0.Coords) (a1 : Memref sig .tc .vmem S1024x1024 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : ¬cond0_1 i) (x : Vec F S1024x1024 .f32) (xs : Vec F S1x1 .f32) :
    sout0_B_0 c i a1 h1 a2 h2 a3 h3 hc0 hc1 x xs = k0_pay2 x xs := by
  unfold sout0_B_0
  rw [View.read_writes_eq_canon _ _ _ (scover0_B_0 c i a1 h1 a2 h2 a3 h3 hc0 hc1 x xs)]
  unfold kernelRun0_B
  dsimp only
  sl_unfold_words
  rw [View.canon_unit_zero hz]
  simp only [View.readAt_eq_ld, h1.read_unread, h3.read_unread, View.ld_unit_zero (S := S1024x1024) hz,
    View.ld_unit_zero (S := S1x1) hz]

/-- The last point leaves the same update in the scratch … -/
theorem scratch_C (c : Dev nD) (i : grid0.Coords) (a1 : Memref sig .tc .vmem S1024x1024 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S1024x1024 .f32) (xs : Vec F S1x1 .f32) :
    sout0_C_0 c i a1 h1 a2 h2 a3 h3 hc0 hc1 x xs = k0_pay2 x xs := by
  unfold sout0_C_0
  rw [View.read_writes_eq_canon _ _ _ (scover0_C_0 c i a1 h1 a2 h2 a3 h3 hc0 hc1 x xs)]
  unfold kernelRun0_C
  dsimp only
  sl_unfold_words
  rw [View.canon_unit_zero hz]
  simp only [View.readAt_eq_ld, h1.read_unread, h3.read_unread, View.ld_unit_zero (S := S1024x1024) hz,
    View.ld_unit_zero (S := S1x1) hz]

/-- … and in the output's block the final value of that update, read back from the scratch. -/
theorem out_C (c : Dev nD) (i : grid0.Coords) (a1 : Memref sig .tc .vmem S1024x1024 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S1024x1024 .f32) (xs : Vec F S1x1 .f32) :
    out0_C_1 c i a1 h1 a2 h2 a3 h3 hc0 hc1 x xs = k0_pay3 (k0_pay2 x xs) := by
  unfold out0_C_1
  rw [View.read_writes_eq_canon _ _ _ (cover0_C_1 c i a1 h1 a2 h2 a3 h3 hc0 hc1 x xs)]
  unfold kernelRun0_C
  dsimp only
  sl_unfold_words
  rw [View.canon_unit_zero hz]
  simp only [View.readAt_eq_ld, h1.read_unread, h3.read_unread, View.ld_unit_zero (S := S1024x1024) hz,
    View.ld_unit_zero (S := S1x1) hz, View.readCov_unit_zero (S := S1x1) _ hz]

/-- The first point leaves in the scratch the update of the tile `x` over the reset's zero. -/
theorem scratch_A (c : Dev nD) (i : grid0.Coords) (a1 : Memref sig .tc .vmem S1024x1024 .f32) (h1 : a1.IsWhole)
    (a2 : Memref sig .tc .vmem S1x1 .f32) (h2 : a2.IsWhole) (a3 : Memref sig .tc .vmem S1x1 .f32) (h3 : a3.IsWhole)
    (hc0 : cond0_0 i) (hc1 : ¬cond0_1 i) (x : Vec F S1024x1024 .f32) :
    sout0_A_0 c i a1 h1 a2 h2 a3 h3 hc0 hc1 x = k0_pay2 x k0_pay1 := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S1024x1024) hz]

end Cert.KernelIdeal.Acc

end
-- ==== Proof.Dist.lean ====
/-
  The distance of a grey value to the nearest of the 256 levels `k / 127.5 - 1` (k = 0 … 255), capped at 1, as one
  function of one extended real: the level index is `(a + 1) · 127.5` rounded to nearest (ties to even) and clipped to
  [0, 255]; the level is that index over 127.5, minus 1; the distance is `|a - level|`, and the result its minimum with 1.
  Both programs apply exactly this function to every entry of the image, so it is named once. The literals stay the
  words the programs print (1.0, 127.5, 0.0, 255.0); none is ever evaluated.
-/
import Idealize.ShloMosaic.PureOps.Ideal

noncomputable section

namespace Cert.Quant

open Idealize.ShloMosaic

/-- The capped distance of `a` to its nearest quantization level. -/
def dist (a : Ideal .f32) : Ideal .f32 :=
  FloatOps.minimumf
    (FloatOps.absf (FloatOps.subf a
      (FloatOps.subf
        (FloatOps.divf
          (FloatOps.minimumf (FloatOps.ofBits .f32 0x437F0000#32)
            (FloatOps.maximumf (FloatOps.ofBits .f32 0x00000000#32)
              (FloatOps.roundeven (FloatOps.mulf (FloatOps.addf a (FloatOps.ofBits .f32 0x3F800000#32)) (FloatOps.ofBits .f32 0x42FF0000#32)))))
          (FloatOps.ofBits .f32 0x42FF0000#32))
        (FloatOps.ofBits .f32 0x3F800000#32))))
    (FloatOps.ofBits .f32 0x3F800000#32)

/-- The programs' elementwise chain over a whole array, of any shape, is `dist` entry by entry. -/
theorem chain_apply {s : Shape} (x : FVec Ideal s .f32) (j : s.Idx) :
    minimumf
      (absf (subf x
        (subf
          (divf
            (minimumf (broadcast s (FloatOps.ofBits .f32 0x437F0000#32))
              (maximumf (broadcast s (FloatOps.ofBits .f32 0x00000000#32))
                (roundeven (mulf (addf x (broadcast s (FloatOps.ofBits .f32 0x3F800000#32))) (broadcast s (FloatOps.ofBits .f32 0x42FF0000#32))))))
            (broadcast s (FloatOps.ofBits .f32 0x42FF0000#32)))
          (broadcast s (FloatOps.ofBits .f32 0x3F800000#32)))))
      (broadcast s (FloatOps.ofBits .f32 0x3F800000#32)) j = dist (x j) := rfl

end Cert.Quant

end
-- ==== Proof.Payload.lean ====
/-
  The kernel body's three stored values, read at the ideal instance.
  The reset stores the zero word, which is the extended real 0. The update stores, at the scratch's one entry, what the
  scratch held plus the tile's total: the body maps the capped level distance over the [1024, 1024] tile, views it as
  [1, 1024, 1024] (a re-indexing along a bijection, so the total is unchanged) and reduces both long axes from the zero word.
  The last point stores the scratch's entry divided by the element count 2^26.
-/
import proofs.«154723_j69114613728896_1_alg».proof.Proof.Gen.KernelIdeal.Skeleton
import proofs.«154723_j69114613728896_1_alg».proof.Proof.Dist
import Idealize.ShloMosaic.PureOps.Ideal.Laws
import Idealize.ShloMosaic.Lib.Pipeline.Value
import Idealize.ShloMosaic.Lib.ValueIdx

noncomputable section

open scoped BigOperators

namespace Cert.KernelIdeal.Acc

open Idealize.ShloMosaic Idealize.ShloMosaic.ValueIdx Cert.KernelIdeal Cert.KernelIdeal.Gen Cert.Quant

/-- The reset's value is 0 at the scratch's entry. -/
theorem pay1_apply (y : S1x1.Idx) : k0_pay1 (F := Ideal) y = 0 := by
  unfold k0_pay1
  simp only [shapeCast_self]
  exact Ideal.ofBits_zero_f32

/-- A reduction by addition into a shape whose axes all have extent one, of an array first viewed in another shape of as
    many entries, is the array's total: the view re-indexes along a bijection. -/
theorem total_of_cast {s s' t : Shape} {axes : List (Fin s'.rank)} (v : FVec Ideal s .f32) (hc : s.ShapeCasts s')
    (hr : s'.Reduces axes t) (ht : ∀ b, t.size b = 1) (hφ : FKind.Formats .f32)
    (hacc : (0x00000000#32 : BitVec 32) = 0x00000000#32) (j : t.Idx) :
    multiReduction .add axes t (shapeCast s' v hc) 0x00000000#32 hr hφ hacc j = ∑ i : s.Idx, v i :=
  (Ideal.multiReduction_add_total (φ := .f32) (shapeCast s' v hc) 0x00000000#32 hr ht hφ hacc j).trans
    (Equiv.sum_comp (Shape.reshapeEquiv hc) v)

/-- Reading one position of a re-viewed array reads the array at the matching position. -/
theorem extractAt_shapeCast {s t : Shape} {α : Type} (v : s.Idx → α) (hc : s.ShapeCasts t) (pos : Fin t.rank → Nat)
    (hp : ∀ a, pos a < t.size a) :
    extractAt pos (shapeCast t v hc) hp = v (Shape.reshapeEquiv hc fun a => ⟨pos a, hp a⟩) := rfl

/-- The update's value: the scratch's entry plus the total of the capped distances over the tile. -/
theorem pay2_apply (x : Vec Ideal S1024x1024 .f32) (xs : Vec Ideal S1x1 .f32) (y : S1x1.Idx) :
    k0_pay2 (F := Ideal) x xs y = xs y + ∑ j : S1024x1024.Idx, dist (x j) := by
  unfold k0_pay2
  simp only [shapeCast_self]
  rw [addf_apply, broadcast_apply, extractAt_shapeCast]
  refine congrArg (xs y + ·) ?_
  exact (total_of_cast _ shapeCasts_S1024x1024_S1x1024x1024 reduces_S1x1024x1024_S1 (fun b => by fin_cases b; rfl) _ _ _).trans
    (Finset.sum_congr rfl fun j _ => chain_apply x j)

/-- The final store's value: the scratch's entry over the element count. -/
theorem pay3_apply (v : Vec Ideal S1x1 .f32) (y : S1x1.Idx) :
    k0_pay3 (F := Ideal) v y = Ideal.div (v y) (Ideal.ofBits .f32 0x4C800000#32) := by
  unfold k0_pay3
  rfl

end Cert.KernelIdeal.Acc

end
-- ==== Proof.TileSum.lean ====
/-
  Re-tiling a total sum. A [65536, 1024] array is cut into 64 row tiles of [1024, 1024]; row `1024·t + r` of the array is
  row `r` of tile `t`. Summing every entry of the array is summing, tile by tile, every entry of each tile: the map
  `(t, r) ↦ 1024·t + r` is a bijection between `Fin 64 × Fin 1024` and `Fin 65536` (quotient and remainder by 1024 invert it),
  and addition in a commutative monoid may be regrouped along any bijection. Nothing here needs the summands finite.
-/
import Idealize.ShloMosaic.Lib.ValueIdx
import Mathlib.Algebra.BigOperators.Fin

open scoped BigOperators

namespace Cert.TileSum

open Idealize.ShloMosaic Idealize.ShloMosaic.ValueIdx

/-- Row `1024·t + r` of the long array, for tile `t` and row `r` inside the tile. -/
def tileRow (t : Fin 64) (r : Fin 1024) : Fin 65536 :=
  ⟨1024 * t.val + r.val, by have := t.isLt; have := r.isLt; omega⟩

theorem tileRow_val (t : Fin 64) (r : Fin 1024) : (tileRow t r).val = 1024 * t.val + r.val := rfl

/-- Tile and row-in-tile against the long array's row: quotient and remainder by 1024. -/
def rowEquiv : Fin 64 × Fin 1024 ≃ Fin 65536 where
  toFun p := tileRow p.1 p.2
  invFun a := (⟨a.val / 1024, by have := a.isLt; omega⟩, ⟨a.val % 1024, by omega⟩)
  left_inv p := by
    obtain ⟨t, r⟩ := p
    have ht := t.isLt; have hr := r.isLt
    apply Prod.ext <;> apply Fin.ext <;> simp only [tileRow_val] <;> omega
  right_inv a := by
    apply Fin.ext; simp only [tileRow_val]; omega

/-- The index of the long array that entry `j` of tile `t` sits at. -/
abbrev tileIdx (t : Fin 64) (j : (⟨2, ![1024, 1024]⟩ : Shape).Idx) : (⟨2, ![65536, 1024]⟩ : Shape).Idx :=
  ix2 (tileRow t (j 0)) (j 1)

/-- The total over the long array is the sum over the tiles of each tile's total. -/
theorem sum_tiles {M : Type*} [AddCommMonoid M] (f : (⟨2, ![65536, 1024]⟩ : Shape).Idx → M) :
    ∑ i, f i = ∑ t : Fin 64, ∑ j : (⟨2, ![1024, 1024]⟩ : Shape).Idx, f (tileIdx t j) := by
  rw [sum_idx2, ← Equiv.sum_comp rowEquiv, Fintype.sum_prod_type]
  refine Finset.sum_congr rfl fun t _ => ?_
  rw [sum_idx2]
  rfl

end Cert.TileSum
-- ==== Proof.Running.lean ====
/-
  The running total the kernel carries in its scratch, point by point, at the ideal instance.
  After grid point n the scratch's one entry holds the sum, over the tiles 0 … n, of each tile's total of capped level
  distances: the first point leaves `0 + (tile 0's total)`, every later point adds its own tile's total to what the
  point before left (induction on the point; the body's case is read off the point's position in the grid). The last
  point (63) also leaves in the output's block that sum over all 64 tiles divided by the element count.
  Tile t, as the region finds it, is rows 1024·t … 1024·t + 1023 of the [65536, 1024] array the host reshaped the image to.
-/
import proofs.«154723_j69114613728896_1_alg».proof.Proof.Pieces
import proofs.«154723_j69114613728896_1_alg».proof.Proof.Payload
import proofs.«154723_j69114613728896_1_alg».proof.Proof.TileSum

noncomputable section

open scoped BigOperators

namespace Cert.KernelIdeal.Acc

open Idealize.ShloMosaic Idealize.ShloMosaic.TcCoe Idealize.SL.Sem Cert.KernelIdeal Cert.KernelIdeal.Gen Cert.Quant
open Idealize.ShloMosaic.ValueIdx

variable (m : (ℓ : Loc nD τ sig) → Buf (Elt Ideal) ℓ)

/-- Tile `t` of the reshaped image: the input window's block at point `t`. -/
abbrev tileOf (c : Dev nD) (t : Fin cfg0.N) : Vec Ideal S1024x1024 .f32 := iblk m c 0 t

/-- The total of the capped level distances over tile `k` (0 past the grid's end). -/
def tileTotal (c : Dev nD) (k : ℕ) : EReal :=
  if h : k < cfg0.N then ∑ j : S1024x1024.Idx, dist (tileOf m c ⟨k, h⟩ j) else 0

theorem tileTotal_of_lt (c : Dev nD) (k : ℕ) (h : k < cfg0.N) :
    tileTotal m c k = ∑ j : S1024x1024.Idx, dist (tileOf m c ⟨k, h⟩ j) := dif_pos h

/-- After point `n` the scratch's entry is the sum of the totals of tiles 0 … n. -/
theorem scratch_after (c : Dev nD) (y : S1x1.Idx) : ∀ (n : ℕ) (h : n < cfg0.N),
    (outsAt0 m c n h).2 y = ∑ k ∈ Finset.range (n + 1), tileTotal m c k
  | 0, h => by
    rw [outsAt0_A m c ⟨0, h⟩ rfl (by dsimp only; omega)]
    dsimp only
    refine (congrFun (scratch_A (F := Ideal) c (grid0.coords ⟨0, h⟩) (ms0_0 ⟨0, h⟩) (hs0_0 ⟨0, h⟩) (ms0_1 ⟨0, h⟩) (hs0_1 ⟨0, h⟩)
      scM0_0 (Memref.isWhole_whole _) _ _ (tileOf m c ⟨0, h⟩)) y).trans ?_
    rw [pay2_apply, pay1_apply, zero_add, Finset.sum_range_one, tileTotal_of_lt m c 0 h]
  | n + 1, h => by
    have hN : cfg0.N = 64 := N_0
    have h0 : ¬(⟨n + 1, h⟩ : Fin cfg0.N).val % 64 = 0 := by dsimp only; omega
    have ih := scratch_after c y n (Nat.lt_of_succ_lt h)
    rw [Finset.sum_range_succ, tileTotal_of_lt m c (n + 1) h, ← ih]
    by_cases h1 : (⟨n + 1, h⟩ : Fin cfg0.N).val % 64 = 63
    · rw [outsAt0_C m c ⟨n + 1, h⟩ h0 h1]
      dsimp only
      refine (congrFun (scratch_C (F := Ideal) c (grid0.coords ⟨n + 1, h⟩) (ms0_0 ⟨n + 1, h⟩) (hs0_0 ⟨n + 1, h⟩) (ms0_1 ⟨n + 1, h⟩)
        (hs0_1 ⟨n + 1, h⟩) scM0_0 (Memref.isWhole_whole _) _ _ (tileOf m c ⟨n + 1, h⟩)
        (outsAt0 m c n (Nat.lt_of_succ_lt h)).2) y).trans ?_
      rw [pay2_apply]
    · rw [outsAt0_B m c ⟨n + 1, h⟩ h0 h1]
      dsimp only
      refine (congrFun (scratch_B (F := Ideal) c (grid0.coords ⟨n + 1, h⟩) (ms0_0 ⟨n + 1, h⟩) (hs0_0 ⟨n + 1, h⟩) (ms0_1 ⟨n + 1, h⟩)
        (hs0_1 ⟨n + 1, h⟩) scM0_0 (Memref.isWhole_whole _) _ _ (tileOf m c ⟨n + 1, h⟩)
        (outsAt0 m c n (Nat.lt_of_succ_lt h)).2) y).trans ?_
      rw [pay2_apply]

/-- The last point leaves in the output's block the sum of all 64 tile totals over the element count. -/
theorem out_last (c : Dev nD) (y : S1x1.Idx) (h : 63 < cfg0.N) :
    (outsAt0 m c 63 h).1 y
      = Ideal.div (∑ k ∈ Finset.range 64, tileTotal m c k) (Ideal.ofBits .f32 0x4C800000#32) := by
  rw [outsAt0_C m c ⟨63, h⟩ (by dsimp only; omega) rfl]
  dsimp only
  refine (congrFun (out_C (F := Ideal) c (grid0.coords ⟨63, h⟩) (ms0_0 ⟨63, h⟩) (hs0_0 ⟨63, h⟩) (ms0_1 ⟨63, h⟩)
    (hs0_1 ⟨63, h⟩) scM0_0 (Memref.isWhole_whole _) _ _ (tileOf m c ⟨63, h⟩)
    (outsAt0 m c 62 (Nat.lt_of_succ_lt h)).2) y).trans ?_
  rw [pay3_apply, pay2_apply, scratch_after m c y 62 (Nat.lt_of_succ_lt h), ← tileTotal_of_lt m c 63 h,
    ← Finset.sum_range_succ (fun k => tileTotal m c k) 63]

end Cert.KernelIdeal.Acc

end
-- ==== Proof.KernelValue.lean ====
/-
  What the idealized kernel program returns: the mean of the capped level distances over the whole image.
  The output's one block is the whole [1, 1] result array and is written back once, after the last grid point, holding
  the sum of the 64 tile totals over the element count; the host line after the call views that [1, 1] array as a scalar.
  The host line before the call views the [64, 1, 1024, 1024] image as [65536, 1024] (a bijection of positions), tile t is
  rows 1024·t … 1024·t + 1023 of that view, so the 64 tile totals add up to the total over the view, which is the total
  over the image. No step uses more than regrouping a finite sum, so nothing is asked of the entries' finiteness.
-/
import proofs.«154723_j69114613728896_1_alg».proof.Proof.Running
import Idealize.ShloMosaic.Lib.StableHlo.Run

noncomputable section

open scoped BigOperators

namespace Cert.KernelIdeal.Acc

open Idealize.ShloMosaic Idealize.ShloMosaic.TcCoe Idealize.SL.Sem Cert.KernelIdeal Cert.KernelIdeal.Gen Cert.Quant
open Idealize.ShloMosaic.ValueIdx
open Idealize.ShloMosaic.Pipeline (Dat)

variable (m : (ℓ : Loc nD τ sig) → Buf (Elt Ideal) ℓ) (ρ : Dev nD → PrngReg)

/-- The sum of the 64 tile totals over the element count. -/
def meanOfTiles (c : Dev nD) : EReal :=
  Ideal.div (∑ k ∈ Finset.range 64, tileTotal m c k) (Ideal.ofBits .f32 0x4C800000#32)

/-- The [1, 1] result array's contents after the call. -/
abbrev result (c : Dev nD) : Buf (Elt Ideal) ((c : Thread nD τ).loc main_v1) := fun _ => meanOfTiles m c

/-- The grid's last point. -/
abbrev tLast : Fin cfg0.N := ⟨63, by rw [show cfg0.N = 64 from N_0]; decide⟩

theorem out_tLast (c : Dev nD) : (outsAt0 m c tLast.val tLast.isLt).1 = result m c :=
  funext fun y => out_last m c y tLast.isLt

/-- The one write-back, at the last point, writes the mean: block (0, 0) of the [1, 1] array is the array. -/
theorem flushed_eq (c : Dev nD) (t : Fin cfg0.N) (hf : (cfg0.win 1).flush t = true) :
    (dats m 0 c).flushed 1 t = ((cfg0.win 1).blk t).view.read (Elt Ideal) (result m c) := by
  have hN : cfg0.N = 64 := N_0
  have h63 : t.val = 63 := by have := (flush0_1 t).mp hf; have := t.isLt; omega
  obtain rfl : t = tLast := Fin.ext h63
  show (cfg0.win 1).cut (grid0.coords tLast) ((dats m 0 c).after 1 tLast) = _
  rw [after0_1, out_tLast]
  have hz' : (fun a => win0_1.index tLast a * main_v1.ty.shape.size a) = fun _ => 0 := funext fun a => by fin_cases a <;> decide +kernel
  exact (Memref.read_access_unit_zero (Elt Ideal) main_v1 hz' (fun a => by rw [congrFun hz' a]; simp) (result m c)).symm

/-- At the last point the output's block starts at 0 and has extent 1 on both axes: it is the whole [1, 1] array. -/
theorem last_block : ∀ a : Fin 2,
    win0_1.index tLast a * win0_1.size a = 0 ∧ win0_1.xsize (grid0.coords tLast) a = 1 := by decide +kernel

/-- So the result array ends holding the mean: its one entry lies in the block the last point writes back. -/
theorem final_o (c : Dev nD) : (dats m 0 c).arrAt 1 cfg0.N = result m c :=
  (dats m 0 c).arrAt_eq_of_cover 1 (result m c) (flushed_eq m c) fun i =>
    ⟨tLast, (flush0_1 tLast).mpr rfl, by
      show i ∈ ((View.whole main_v1).slice (win0_1.rect tLast)).set
      rw [View.set_slice_whole, Rect.mem_set_unit]
      intro a
      show win0_1.index tLast a * win0_1.size a ≤ (i a : Nat)
        ∧ (i a : Nat) < win0_1.index tLast a * win0_1.size a + win0_1.xsize (grid0.coords tLast) a
      rw [(last_block a).1, (last_block a).2]
      have hi : (i a : Nat) < 1 := by have := (i a).isLt; fin_cases a <;> exact this
      omega⟩

/-- The host line after the call: the scalar result is the [1, 1] array's entry. -/
theorem tail_eq (c : Dev nD) :
    Pipeline.afterTail₀ cfgs (dats m) 0 (V0 m) [hostOps1] c main_v2 = fun _ => meanOfTiles m c := by
  unfold Pipeline.afterTail₀
  show StableHlo.after hostOps1 _ (Proc.devRef .tc main_v2) = _
  after_results
  funext i
  show shapeCast S_ (Pipeline.withArrays spec0 c (V0 m c) (fun w => (dats m 0 c).arrAt w cfg0.N)
    (Proc.devRef .tc (Pipeline.arrRef spec0 1))) shapeCasts_S1x1_S_ i = _
  rw [Pipeline.withArrays_arr spec0 launch0.win.arr_inj c _ _ 1, final_o]
  rfl

/-- The host line before the call: the region finds the image viewed as [65536, 1024]. -/
theorem V_main_v0 (c : Dev nD) :
    (V m c main_v0 : S65536x1024.Idx → Ideal .f32)
      = shapeCast S65536x1024 (m ((c : Thread nD τ).loc main_arg0)) shapeCasts_S64x1x1024x1024_S65536x1024 := by
  show StableHlo.after hostOps0 (fun b => m (c, b)) (Proc.devRef .tc main_v0) = _
  after_results
  rfl

/-- Where the input window's block sits at each point: block row `t`, block column 0. -/
theorem index_facts : ∀ t : Fin cfg0.N, win0_0.index t 0 = t.val ∧ win0_0.index t 1 = 0 :=
  (by decide +kernel : ∀ t : Fin grid0.N, win0_0.index t 0 = t.val ∧ win0_0.index t 1 = 0)

/-- Entry `j` of tile `t` is the view's entry at row `1024·t + j₀`, column `j₁`. -/
theorem tile_apply (c : Dev nD) (t : Fin cfg0.N) (k : Fin 64) (hk : k.val = t.val) (j : S1024x1024.Idx) :
    tileOf m c t j = (V m c main_v0 : S65536x1024.Idx → Ideal .f32) (TileSum.tileIdx k j) := by
  have hi := index_facts t
  unfold tileOf iblk
  rw [View.read_apply]
  show V m c main_v0 _ = V m c main_v0 _
  congr 1
  funext a
  apply Fin.ext
  match a with
  | ⟨0, _⟩ => show win0_0.index t 0 * 1024 + 1 * (j 0).val = 1024 * k.val + (j 0).val; rw [hi.1, hk]; omega
  | ⟨1, _⟩ => show win0_0.index t 1 * 1024 + 1 * (j 1).val = (j 1).val; rw [hi.2]; omega

/-- The 64 tile totals add up to the total over the image. -/
theorem total_eq (c : Dev nD) :
    ∑ k ∈ Finset.range 64, tileTotal m c k
      = ∑ i : S64x1x1024x1024.Idx, dist (m ((c : Thread nD τ).loc main_arg0) i) := by
  have hN : cfg0.N = 64 := N_0
  rw [Finset.sum_range]
  have e : ∀ k : Fin 64, tileTotal m c k.val
      = ∑ j : S1024x1024.Idx, (fun i2 : S65536x1024.Idx => dist ((V m c main_v0 : S65536x1024.Idx → Ideal .f32) i2)) (TileSum.tileIdx k j) :=
    fun k => by
      rw [tileTotal_of_lt m c k.val (by rw [hN]; exact k.isLt)]
      exact Finset.sum_congr rfl fun j _ => congrArg dist (tile_apply m c ⟨k.val, by rw [hN]; exact k.isLt⟩ k rfl j)
  rw [Finset.sum_congr rfl fun k _ => e k,
    ← TileSum.sum_tiles (fun i2 : S65536x1024.Idx => dist ((V m c main_v0 : S65536x1024.Idx → Ideal .f32) i2)), V_main_v0]
  exact Equiv.sum_comp (Shape.reshapeEquiv shapeCasts_S64x1x1024x1024_S65536x1024)
    (fun i => dist (m ((c : Thread nD τ).loc main_arg0) i))

/-- The mean of the capped level distances over the image. -/
def mean (x : S64x1x1024x1024.Idx → Ideal .f32) : EReal :=
  Ideal.div (∑ i : S64x1x1024x1024.Idx, dist (x i)) (Ideal.ofBits .f32 0x4C800000#32)

theorem meanOfTiles_eq (c : Dev nD) : meanOfTiles m c = mean (m ((c : Thread nD τ).loc main_arg0)) := by
  unfold meanOfTiles mean
  rw [total_eq]

/-- The run, read: the scalar result at the image's mean distance, the image unchanged. -/
theorem run : θ_run defs (onTc (τ := τ) (main (F := Ideal))) ⟨m, fun _ => 0, ρ⟩ fun r => ∀ c : Dev nD,
      r.2.mem ((c.tc : Thread nD τ).loc main_v2) = (fun _ => mean (m ((c.tc : Thread nD τ).loc main_arg0)))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans
          ((tail_eq m c).trans (funext fun _ => meanOfTiles_eq m c)),
        ((h c).2 main_arg0 (Pipeline.mem_restRefs_of main_arg0 (by decide) (by decide))).trans (W_main_arg0 m (dats m) c)⟩)
    (run_main m ρ)

end Cert.KernelIdeal.Acc

end
-- ==== Proof.RefValue.lean ====
/-
  What the idealized reference returns: its operations, read one entry at a time, apply the capped level distance to
  every entry of the image, add all of them up from the zero word (which is the extended real 0), and divide by the
  element count 2^26. The host's quotient, absolute value and rounding are the kernel's at the ideal instance.
-/
import proofs.«154723_j69114613728896_1_alg».proof.Proof.Gen.ReferenceIdeal.Read
import proofs.«154723_j69114613728896_1_alg».proof.Proof.Dist

noncomputable section

open scoped BigOperators

namespace Cert.ReferenceIdeal.RefValue

open Idealize.ShloMosaic Cert.ReferenceIdeal Cert.ReferenceIdeal.Gen Cert.ReferenceIdeal.Read Cert.Quant

/-- The reference's last elementwise stage is the capped level distance of the image's entry. -/
theorem v13_apply (x : (⟨S64x1x1024x1024, .f32⟩ : BufTy).Contents (Elt Ideal)) (i : S64x1x1024x1024.Idx) :
    val_main_v13 (F := Ideal) x i = dist (x i) := by
  simp only [val_main_v13_apply, val_main_v12_apply, val_main_cst_5_apply, val_main_v11_apply, val_main_v10_apply,
    val_main_v9_apply, val_main_v8_apply, val_main_cst_4_apply, val_main_v7_apply, val_main_v6_apply, val_main_cst_3_apply,
    val_main_v5_apply, val_main_call1_v4_apply, val_main_call1_v3_apply, val_main_cst_2_apply, val_main_call1_v2_apply,
    val_main_call1_v1_apply, val_main_call1_v0_apply, val_main_cst_1_apply, val_main_v4_apply, val_main_v3_apply,
    val_main_v2_apply, val_main_cst_0_apply, val_main_v1_apply, val_main_v0_apply, val_main_cst_apply]
  rfl

/-- The reference's result: the total of the capped level distances over the image, over the element count. -/
theorem result_apply (x : (⟨S64x1x1024x1024, .f32⟩ : BufTy).Contents (Elt Ideal)) (i : S_.Idx) :
    val_main_v15 (F := Ideal) x i
      = Ideal.div (∑ j : S64x1x1024x1024.Idx, dist (x j)) (Ideal.ofBits .f32 0x4C800000#32) := by
  rw [val_main_v15_apply, val_main_v14_apply, val_main_cst_7_apply, val_main_cst_6_apply]
  simp only [v13_apply]
  show Ideal.div (Ideal.ofBits .f32 0x00000000#32 + _) _ = _
  rw [Ideal.ofBits_zero_f32, zero_add]
  rfl

end Cert.ReferenceIdeal.RefValue

end
-- ==== Proof.lean ====
/-
  The certificate's claims for the quantization-loss kernel against its jnp reference.
  Both idealized programs return the same extended real: the sum, over every entry of the [64, 1, 1024, 1024] image, of
  the entry's capped distance to its nearest quantization level, divided by the element count 2^26. The reference
  computes it in one pass (an elementwise chain, one total sum, one quotient). The kernel walks 64 row tiles of the image
  viewed as [65536, 1024], keeps a running total in a one-entry scratch, and divides after the last tile; regrouping the
  total sum tile by tile is the one law that joins the two, and it holds for any extended reals, so the precondition is
  never opened. The three frames are the programs' runs with the value dropped; the idealization rewrote nothing.
-/
import proofs.«154723_j69114613728896_1_alg».proof.Defs
import proofs.«154723_j69114613728896_1_alg».proof.Proof.Gen.Kernel
import proofs.«154723_j69114613728896_1_alg».proof.Proof.Gen.Kernel.Frame
import proofs.«154723_j69114613728896_1_alg».proof.Proof.Gen.KernelIdeal
import proofs.«154723_j69114613728896_1_alg».proof.Proof.Gen.KernelIdeal.Frame
import proofs.«154723_j69114613728896_1_alg».proof.Proof.Gen.ReferenceIdeal
import proofs.«154723_j69114613728896_1_alg».proof.Proof.Gen.ReferenceIdeal.Run
import proofs.«154723_j69114613728896_1_alg».proof.Proof.Gen.ReferenceIdeal.Read
import proofs.«154723_j69114613728896_1_alg».proof.Proof.Gen.Pre_finite_inputs
import proofs.«154723_j69114613728896_1_alg».proof.Proof.KernelValue
import proofs.«154723_j69114613728896_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the image's mean capped level distance, of images that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.KernelIdeal.Acc.mean (m ((c.tc : Thread Cert.KernelIdeal.nD Cert.KernelIdeal.τ).loc Cert.KernelIdeal.main_arg0)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, hagree c]
  funext i
  exact Cert.ReferenceIdeal.RefValue.result_apply _ i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
